-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x224x224 : Shape := ⟨3, ![64, 224, 224]⟩
abbrev S50176x40 : Shape := ⟨2, ![50176, 40]⟩
abbrev S2x40 : Shape := ⟨2, ![2, 40]⟩
abbrev S10x40 : Shape := ⟨2, ![10, 40]⟩
abbrev S_ : Shape := ⟨0, ![]⟩

class Facts : Prop where
  bcast_S_S64x224x224 : S_.BroadcastsInDim S64x224x224 (![] : Fin 0 → Fin S64x224x224.rank)
  reducesTo_S64x224x224_S_d0_1_2 : S64x224x224.ReducesTo [0, 1, 2] S_
  h_S_ : 0 < S_.numel
  bcast_S_S50176x40 : S_.BroadcastsInDim S50176x40 (![] : Fin 0 → Fin S50176x40.rank)
  reducesTo_S50176x40_S_d0_1 : S50176x40.ReducesTo [0, 1] S_
  bcast_S_S2x40 : S_.BroadcastsInDim S2x40 (![] : Fin 0 → Fin S2x40.rank)
  reducesTo_S2x40_S_d0_1 : S2x40.ReducesTo [0, 1] S_
  bcast_S_S10x40 : S_.BroadcastsInDim S10x40 (![] : Fin 0 → Fin S10x40.rank)
  reducesTo_S10x40_S_d0_1 : S10x40.ReducesTo [0, 1] S_

variable [Facts]

def fn_part1 {F : FTy → Type} [FloatOps F] (main_v13 : IVec S_ 1) (main_v16 : IVec S10x40 1) : IVec S_ 1 :=
  let main_c_5 : IVec S_ 1 := constantI S_ 1 1#1
  let main_v17 : IVec S_ 1 := (fun x v => Host.reduce IntOp.andi x v reducesTo_S10x40_S_d0_1 h_S_) main_v16 main_c_5
  let main_v18 : IVec S_ 1 := andi main_v13 main_v17
  main_v18

def fn {F : FTy → Type} [FloatOps F] (main_arg0 : FVec F S64x224x224 .f32) (main_arg1 : FVec F S50176x40 .f32) (main_arg2 : FVec F S2x40 .f32) (main_arg3 : FVec F S10x40 .f32) : IVec S_ 1 :=
  let main_v0 : FVec F S64x224x224 .f32 := Host.absf main_arg0
  let main_cst : FVec F S_ .f32 := constant S_ .f32 0x7F800000#32
  let main_v1 : FVec F S64x224x224 .f32 := broadcastInDim S64x224x224 ![] bcast_S_S64x224x224 main_cst
  let main_v2 : IVec S64x224x224 1 := cmpf .olt main_v0 main_v1
  let main_c : IVec S_ 1 := constantI S_ 1 1#1
  let main_v3 : IVec S_ 1 := (fun x v => Host.reduce IntOp.andi x v reducesTo_S64x224x224_S_d0_1_2 h_S_) main_v2 main_c
  let main_v4 : FVec F S50176x40 .f32 := Host.absf main_arg1
  let main_cst_0 : FVec F S_ .f32 := constant S_ .f32 0x7F800000#32
  let main_v5 : FVec F S50176x40 .f32 := broadcastInDim S50176x40 ![] bcast_S_S50176x40 main_cst_0
  let main_v6 : IVec S50176x40 1 := cmpf .olt main_v4 main_v5
  let main_c_1 : IVec S_ 1 := constantI S_ 1 1#1
  let main_v7 : IVec S_ 1 := (fun x v => Host.reduce IntOp.andi x v reducesTo_S50176x40_S_d0_1 h_S_) main_v6 main_c_1
  let main_v8 : IVec S_ 1 := andi main_v3 main_v7
  let main_v9 : FVec F S2x40 .f32 := Host.absf main_arg2
  let main_cst_2 : FVec F S_ .f32 := constant S_ .f32 0x7F800000#32
  let main_v10 : FVec F S2x40 .f32 := broadcastInDim S2x40 ![] bcast_S_S2x40 main_cst_2
  let main_v11 : IVec S2x40 1 := cmpf .olt main_v9 main_v10
  let main_c_3 : IVec S_ 1 := constantI S_ 1 1#1
  let main_v12 : IVec S_ 1 := (fun x v => Host.reduce IntOp.andi x v reducesTo_S2x40_S_d0_1 h_S_) main_v11 main_c_3
  let main_v13 : IVec S_ 1 := andi main_v8 main_v12
  let main_v14 : FVec F S10x40 .f32 := Host.absf main_arg3
  let main_cst_4 : FVec F S_ .f32 := constant S_ .f32 0x7F800000#32
  let main_v15 : FVec F S10x40 .f32 := broadcastInDim S10x40 ![] bcast_S_S10x40 main_cst_4
  let main_v16 : IVec S10x40 1 := cmpf .olt main_v14 main_v15
  fn_part1 (F := F) main_v13 main_v16
-- ==== Kernel.lean ====
abbrev S64x224x224 : Shape := ⟨3, ![64, 224, 224]⟩
abbrev S50176x40 : Shape := ⟨2, ![50176, 40]⟩
abbrev S2x40 : Shape := ⟨2, ![2, 40]⟩
abbrev S10x40 : Shape := ⟨2, ![10, 40]⟩
abbrev S64x50176 : Shape := ⟨2, ![64, 50176]⟩
abbrev S64x10 : Shape := ⟨2, ![64, 10]⟩
abbrev S64x6272 : Shape := ⟨2, ![64, 6272]⟩
abbrev S6272x40 : Shape := ⟨2, ![6272, 40]⟩
abbrev S72x40 : Shape := ⟨2, ![72, 40]⟩
abbrev S8x6272 : Shape := ⟨2, ![8, 6272]⟩
abbrev S72x6272 : Shape := ⟨2, ![72, 6272]⟩
abbrev S64x40 : Shape := ⟨2, ![64, 40]⟩
abbrev S1x40 : Shape := ⟨2, ![1, 40]⟩
abbrev S40x10 : Shape := ⟨2, ![40, 10]⟩

abbrev nBuf : Space → Nat
  | .hbm => 6
  | .vmem => 8
  | .smem => 0
  | _ => 0

abbrev bufTy : (tb : Table) → Fin (tcTables nBuf tb) → BufTy
  | .hbm, ⟨0, _⟩ => ⟨S64x224x224, .f32⟩
  | .hbm, ⟨1, _⟩ => ⟨S50176x40, .f32⟩
  | .hbm, ⟨2, _⟩ => ⟨S2x40, .f32⟩
  | .hbm, ⟨3, _⟩ => ⟨S10x40, .f32⟩
  | .hbm, ⟨4, _⟩ => ⟨S64x50176, .f32⟩
  | .hbm, ⟨5, _⟩ => ⟨S64x10, .f32⟩
  | .local _ .vmem, ⟨0, _⟩ => ⟨S64x6272, .f32⟩
  | .local _ .vmem, ⟨1, _⟩ => ⟨S64x6272, .f32⟩
  | .local _ .vmem, ⟨2, _⟩ => ⟨S6272x40, .f32⟩
  | .local _ .vmem, ⟨3, _⟩ => ⟨S6272x40, .f32⟩
  | .local _ .vmem, ⟨4, _⟩ => ⟨S2x40, .f32⟩
  | .local _ .vmem, ⟨5, _⟩ => ⟨S10x40, .f32⟩
  | .local _ .vmem, ⟨6, _⟩ => ⟨S64x10, .f32⟩
  | .local _ .vmem, ⟨7, _⟩ => ⟨S72x40, .f32⟩
  | _, _ => ⟨S64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6272x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64x224x224_S64x50176 : S64x224x224.ShapeCasts S64x50176
  inb_S72x40_S72x40_0_0 : ∀ a, (![0, 0] : Fin 2 → Nat) a + S72x40.size a ≤ S72x40.size a
  h_S72x40 : 0 < S72x40.numel
  shapeCasts_S72x40_S72x40 : S72x40.ShapeCasts S72x40
  inb_S64x6272_S64x6272_0_0 : ∀ a, (![0, 0] : Fin 2 → Nat) a + S64x6272.size a ≤ S64x6272.size a
  h_S64x6272 : 0 < S64x6272.numel
  shapeCasts_S64x6272_S64x6272 : S64x6272.ShapeCasts S64x6272
  bitsLt_bf16_f32 : FTy.bits .bf16 < FTy.bits .f32
  concatenates_S64x6272_S8x6272_S72x6272_d0 : Shape.Concatenates [S64x6272, S8x6272] S72x6272 0
  inb_S6272x40_S6272x40_0_0 : ∀ a, (![0, 0] : Fin 2 → Nat) a + S6272x40.size a ≤ S6272x40.size a
  h_S6272x40 : 0 < S6272x40.numel
  inb_S72x40_S64x40_0_0 : ∀ a, (![0, 0] : Fin 2 → Nat) a + S64x40.size a ≤ S72x40.size a
  h_S64x40 : 0 < S64x40.numel
  inb_S72x40_S1x40_64_0 : ∀ a, (![64, 0] : Fin 2 → Nat) a + S1x40.size a ≤ S72x40.size a
  h_S1x40 : 0 < S1x40.numel
  inb_S2x40_S1x40_0_0 : ∀ a, (![0, 0] : Fin 2 → Nat) a + S1x40.size a ≤ S2x40.size a
  inb_S2x40_S1x40_1_0 : ∀ a, (![1, 0] : Fin 2 → Nat) a + S1x40.size a ≤ S2x40.size a
  broadcasts_S1x40_S64x40 : S1x40.Broadcasts S64x40
  inb_S10x40_S10x40_0_0 : ∀ a, (![0, 0] : Fin 2 → Nat) a + S10x40.size a ≤ S10x40.size a
  h_S10x40 : 0 < S10x40.numel
  transposes_S10x40_p1_0_S40x10 : S10x40.Transposes [1, 0] S40x10
  inb_S64x10_S64x10_0_0 : ∀ a, (![0, 0] : Fin 2 → Nat) a + S64x10.size a ≤ S64x10.size a
  h_S64x10 : 0 < S64x10.numel
  dot_S72x6272_S6272x40_S72x40_1_0_0_1_n_n_wf : DotDims.WF S72x6272 S6272x40 S72x40 [1] [0] [0] [1] [] []
  dot_S64x40_S40x10_S64x10_1_0_0_1_n_n_wf : DotDims.WF S64x40 S40x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x6272.size a ≤ S64x50176.size a
  hwx0_0 : ∀ i : grid0.Coords, EltTy.bits .f32 = 32 ∨ (Rect.block (s := S64x50176) S64x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6272x40.size a ≤ S50176x40.size a
  hwx0_1 : ∀ i : grid0.Coords, EltTy.bits .f32 = 32 ∨ (Rect.block (s := S50176x40) S6272x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x40.size a ≤ S2x40.size a
  hwx0_2 : ∀ i : grid0.Coords, EltTy.bits .f32 = 32 ∨ (Rect.block (s := S2x40) S2x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x40.size a ≤ S10x40.size a
  hwx0_3 : ∀ i : grid0.Coords, EltTy.bits .f32 = 32 ∨ (Rect.block (s := S10x40) S10x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x10.size a ≤ S64x10.size a
  hwx0_4 : ∀ i : grid0.Coords, EltTy.bits .f32 = 32 ∨ (Rect.block (s := S64x10) S64x10.size (cc0_transform_4 i) (hinb0_4 i)).WholeWords (EltTy.packing .f32)

variable [Facts₀]

def dot_S72x6272_S6272x40_S72x40_1_0_0_1_n_n : DotDims S72x6272 S6272x40 S72x40 where
  lhsContracting := [1]
  rhsContracting := [0]
  lhsNonContracting := [0]
  rhsNonContracting := [1]
  lhsBatch := []
  rhsBatch := []
  wf := dot_S72x6272_S6272x40_S72x40_1_0_0_1_n_n_wf
def dot_S64x40_S40x10_S64x10_1_0_0_1_n_n : DotDims S64x40 S40x10 S64x10 where
  lhsContracting := [1]
  rhsContracting := [0]
  lhsNonContracting := [0]
  rhsNonContracting := [1]
  lhsBatch := []
  rhsBatch := []
  wf := dot_S64x40_S40x10_S64x10_1_0_0_1_n_n_wf

abbrev win0_0 : Pipeline.Window sig grid0 :=
  Pipeline.Window.ofSpec (Memref.whole main_v0) S64x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6272x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x10.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x224x224 : Shape := ⟨3, ![64, 224, 224]⟩
abbrev S50176x40 : Shape := ⟨2, ![50176, 40]⟩
abbrev S2x40 : Shape := ⟨2, ![2, 40]⟩
abbrev S10x40 : Shape := ⟨2, ![10, 40]⟩
abbrev S64x50176 : Shape := ⟨2, ![64, 50176]⟩
abbrev S_ : Shape := ⟨0, ![]⟩
abbrev S64x50176x1 : Shape := ⟨3, ![64, 50176, 1]⟩
abbrev S64x50176x40 : Shape := ⟨3, ![64, 50176, 40]⟩
abbrev S1x50176x40 : Shape := ⟨3, ![1, 50176, 40]⟩
abbrev S64x40 : Shape := ⟨2, ![64, 40]⟩
abbrev S40x10 : Shape := ⟨2, ![40, 10]⟩
abbrev S64x10 : Shape := ⟨2, ![64, 10]⟩

abbrev nBuf : Space → Nat
  | .hbm => 42
  | .vmem => 0
  | .smem => 0
  | _ => 0

abbrev bufTy : (tb : Table) → Fin (tcTables nBuf tb) → BufTy
  | .hbm, ⟨0, _⟩ => ⟨S64x224x224, .f32⟩
  | .hbm, ⟨1, _⟩ => ⟨S50176x40, .f32⟩
  | .hbm, ⟨2, _⟩ => ⟨S2x40, .f32⟩
  | .hbm, ⟨3, _⟩ => ⟨S10x40, .f32⟩
  | .hbm, ⟨4, _⟩ => ⟨S64x50176, .f32⟩
  | .hbm, ⟨5, _⟩ => ⟨S_, .f32⟩
  | .hbm, ⟨6, _⟩ => ⟨S64x50176, .f32⟩
  | .hbm, ⟨7, _⟩ => ⟨S64x50176, .f32⟩
  | .hbm, ⟨8, _⟩ => ⟨S64x50176, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S64x50176, .f32⟩
  | .hbm, ⟨13, _⟩ => ⟨S64x50176, .f32⟩
  | .hbm, ⟨14, _⟩ => ⟨S_, .f32⟩
  | .hbm, ⟨15, _⟩ => ⟨S64x50176, .f32⟩
  | .hbm, ⟨16, _⟩ => ⟨S64x50176, .f32⟩
  | .hbm, ⟨17, _⟩ => ⟨S64x50176, .i32⟩
  | .hbm, ⟨18, _⟩ => ⟨S_, .i32⟩
  | .hbm, ⟨19, _⟩ => ⟨S64x50176, .i32⟩
  | .hbm, ⟨20, _⟩ => ⟨S64x50176, .i1⟩
  | .hbm, ⟨21, _⟩ => ⟨S_, .i32⟩
  | .hbm, ⟨22, _⟩ => ⟨S64x50176, .i32⟩
  | .hbm, ⟨23, _⟩ => ⟨S64x50176, .i32⟩
  | .hbm, ⟨24, _⟩ => ⟨S64x50176, .i32⟩
  | .hbm, ⟨25, _⟩ => ⟨S64x50176x1, .i32⟩
  | .hbm, ⟨26, _⟩ => ⟨S64x50176x40, .f32⟩
  | .hbm, ⟨27, _⟩ => ⟨S1x50176x40, .f32⟩
  | .hbm, ⟨28, _⟩ => ⟨S64x50176x40, .f32⟩
  | .hbm, ⟨29, _⟩ => ⟨S64x50176x40, .f32⟩
  | .hbm, ⟨30, _⟩ => ⟨S_, .f32⟩
  | .hbm, ⟨31, _⟩ => ⟨S64x40, .f32⟩
  | .hbm, ⟨32, _⟩ => ⟨S_, .f32⟩
  | .hbm, ⟨33, _⟩ => ⟨S64x40, .f32⟩
  | .hbm, ⟨34, _⟩ => ⟨S64x40, .i1⟩
  | .hbm, ⟨35, _⟩ => ⟨S_, .f32⟩
  | .hbm, ⟨36, _⟩ => ⟨S_, .f32⟩
  | .hbm, ⟨37, _⟩ => ⟨S64x40, .f32⟩
  | .hbm, ⟨38, _⟩ => ⟨S64x40, .f32⟩
  | .hbm, ⟨39, _⟩ => ⟨S64x40, .f32⟩
  | .hbm, ⟨40, _⟩ => ⟨S40x10, .f32⟩
  | .hbm, ⟨41, _⟩ => ⟨S64x10, .f32⟩
  | _, _ => ⟨S64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  shapeCasts_S64x224x224_S64x50176 : S64x224x224.ShapeCasts S64x50176
  bcast_S_S64x50176 : S_.BroadcastsInDim S64x50176 (![] : Fin 0 → Fin S64x50176.rank)
  bcast_S64x50176_S64x50176x1_0_1 : S64x50176.BroadcastsInDim S64x50176x1 (![0, 1] : Fin 2 → Fin S64x50176x1.rank)
  bcast_S50176x40_S1x50176x40_1_2 : S50176x40.BroadcastsInDim S1x50176x40 (![1, 2] : Fin 2 → Fin S1x50176x40.rank)
  bcast_S1x50176x40_S64x50176x40_0_1_2 : S1x50176x40.BroadcastsInDim S64x50176x40 (![0, 1, 2] : Fin 3 → Fin S64x50176x40.rank)
  reducesTo_S64x50176x40_S64x40_d1 : S64x50176x40.ReducesTo [1] S64x40
  h_S_ : 0 < S_.numel
  bcast_S_S64x40 : S_.BroadcastsInDim S64x40 (![] : Fin 0 → Fin S64x40.rank)
  transposes_S10x40_S40x10_1_0 : S10x40.Transposes [1, 0] S40x10
  gather_S2x40_S64x50176x1_S64x50176x40_2_0_n_n_0_2_140_wf : GatherDims.WF S2x40 S64x50176x1 S64x50176x40 [2] [0] [] [0] [] 2 ![1, 40]
  dot_S64x40_S40x10_S64x10_1_0_0_1_n_n_wf : DotDims.WF S64x40 S40x10 S64x10 [1] [0] [0] [1] [] []

variable [Facts₀]

def gather_S2x40_S64x50176x1_S64x50176x40_2_0_n_n_0_2_140 : GatherDims S2x40 S64x50176x1 S64x50176x40 where
  offsetDims := [2]
  collapsedSliceDims := [0]
  operandBatchingDims := []
  startIndicesBatchingDims := []
  startIndexMap := [0]
  indexVectorDim := 2
  sliceSizes := ![1, 40]
  wf := gather_S2x40_S64x50176x1_S64x50176x40_2_0_n_n_0_2_140_wf
def dot_S64x40_S40x10_S64x10_1_0_0_1_n_n : DotDims S64x40 S40x10 S64x10 where
  lhsContracting := [1]
  rhsContracting := [0]
  lhsNonContracting := [0]
  rhsNonContracting := [1]
  lhsBatch := []
  rhsBatch := []
  wf := dot_S64x40_S40x10_S64x10_1_0_0_1_n_n_wf

class Facts : Prop extends Facts₀ where

variable [Facts]
-- ==== Proof.Pieces.lean ====
/-
  What the kernel body leaves behind, case by case, as values of its loads.

  The body runs in three cases. At the first grid point it clears the [72, 40] accumulator and then adds the tile's
  product into it; at a middle point it adds the tile's product into what the point before left; at the last point it does
  the same and then, from the accumulator it has just stored, computes the [64, 10] result: rows 0..63 of the accumulator
  (the per-image sums), row 64 (the sum over all pixels) and the two rows of the level table go into the final
  arithmetic. Each lemma below reads the stores the run found back as the body's own arithmetic terms of the blocks
  loaded, at any float instance.
-/
import proofs.«125885_j16071767621701_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hv

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Rows 0..63 of an accumulator. -/
abbrev rowsOf (acc : Vec F S72x40 .f32) : Vec F S64x40 .f32 :=
  View.ld acc (Rect.unit (s := S72x40) ![0, 0] S64x40.size inb_S72x40_S64x40_0_0)

/-- Row 64 of an accumulator. -/
abbrev totOf (acc : Vec F S72x40 .f32) : Vec F S1x40 .f32 :=
  View.ld acc (Rect.unit (s := S72x40) ![64, 0] S1x40.size inb_S72x40_S1x40_64_0)

/-- Row 0 of the level table. -/
abbrev lvl0Of (lw : Vec F S2x40 .f32) : Vec F S1x40 .f32 :=
  View.ld lw (Rect.unit (s := S2x40) ![0, 0] S1x40.size inb_S2x40_S1x40_0_0)

/-- Row 1 of the level table. -/
abbrev lvl1Of (lw : Vec F S2x40 .f32) : Vec F S1x40 .f32 :=
  View.ld lw (Rect.unit (s := S2x40) ![1, 0] S1x40.size inb_S2x40_S1x40_1_0)

/-- FIRST POINT: the accumulator is cleared, read back, and left at the clear value plus the tile's product. -/
theorem scr_first (c : Dev nD) (i : grid0.Coords) (arg1 : Memref sig .tc .vmem S64x6272 .f32) (harg1 : arg1.IsWhole) (arg2 : Memref sig .tc .vmem S6272x40 .f32) (harg2 : arg2.IsWhole) (arg3 : Memref sig .tc .vmem S2x40 .f32) (harg3 : arg3.IsWhole) (arg4 : Memref sig .tc .vmem S10x40 .f32) (harg4 : arg4.IsWhole) (arg5 : Memref sig .tc .vmem S64x10 .f32) (harg5 : arg5.IsWhole) (arg6 : Memref sig .tc .vmem S72x40 .f32) (harg6 : arg6.IsWhole) (hc0 : cond0_0 i) (hc1 : ¬cond0_1 i)
    (x0 : Vec F S64x6272 .f32) (x1 : Vec F S6272x40 .f32) (x2 : Vec F S2x40 .f32) (x3 : Vec F S10x40 .f32) :
    sout0_A_0 c i arg1 harg1 arg2 harg2 arg3 harg3 arg4 harg4 arg5 harg5 arg6 harg6 hc0 hc1 x0 x1 x2 x3 = k0_pay2 x0 x1 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S72x40) hz, View.readCov_unit_zero (S := S72x40) _ hz]
  simp only [View.readAt_eq_ld, harg1.read_unread, harg2.read_unread, View.ld_unit_zero (S := S64x6272) hz,
    View.ld_unit_zero (S := S6272x40) hz]

/-- MIDDLE POINT: the accumulator is left at what the point before left plus the tile's product. -/
theorem scr_mid (c : Dev nD) (i : grid0.Coords) (arg1 : Memref sig .tc .vmem S64x6272 .f32) (harg1 : arg1.IsWhole) (arg2 : Memref sig .tc .vmem S6272x40 .f32) (harg2 : arg2.IsWhole) (arg3 : Memref sig .tc .vmem S2x40 .f32) (harg3 : arg3.IsWhole) (arg4 : Memref sig .tc .vmem S10x40 .f32) (harg4 : arg4.IsWhole) (arg5 : Memref sig .tc .vmem S64x10 .f32) (harg5 : arg5.IsWhole) (arg6 : Memref sig .tc .vmem S72x40 .f32) (harg6 : arg6.IsWhole) (hc0 : ¬cond0_0 i) (hc1 : ¬cond0_1 i)
    (x0 : Vec F S64x6272 .f32) (x1 : Vec F S6272x40 .f32) (x2 : Vec F S2x40 .f32) (x3 : Vec F S10x40 .f32) (xs0 : Vec F S72x40 .f32) :
    sout0_B_0 c i arg1 harg1 arg2 harg2 arg3 harg3 arg4 harg4 arg5 harg5 arg6 harg6 hc0 hc1 x0 x1 x2 x3 xs0 = k0_pay2 x0 x1 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero (S := S72x40) hz]
  simp only [View.readAt_eq_ld, harg1.read_unread, harg2.read_unread, harg6.read_unread,
    View.ld_unit_zero (S := S64x6272) hz, View.ld_unit_zero (S := S6272x40) hz, View.ld_unit_zero (S := S72x40) hz]

/-- LAST POINT, the accumulator: the same update as at a middle point. -/
theorem scr_last (c : Dev nD) (i : grid0.Coords) (arg1 : Memref sig .tc .vmem S64x6272 .f32) (harg1 : arg1.IsWhole) (arg2 : Memref sig .tc .vmem S6272x40 .f32) (harg2 : arg2.IsWhole) (arg3 : Memref sig .tc .vmem S2x40 .f32) (harg3 : arg3.IsWhole) (arg4 : Memref sig .tc .vmem S10x40 .f32) (harg4 : arg4.IsWhole) (arg5 : Memref sig .tc .vmem S64x10 .f32) (harg5 : arg5.IsWhole) (arg6 : Memref sig .tc .vmem S72x40 .f32) (harg6 : arg6.IsWhole) (hc0 : ¬cond0_0 i) (hc1 : cond0_1 i)
    (x0 : Vec F S64x6272 .f32) (x1 : Vec F S6272x40 .f32) (x2 : Vec F S2x40 .f32) (x3 : Vec F S10x40 .f32) (xs0 : Vec F S72x40 .f32) :
    sout0_C_0 c i arg1 harg1 arg2 harg2 arg3 harg3 arg4 harg4 arg5 harg5 arg6 harg6 hc0 hc1 x0 x1 x2 x3 xs0 = k0_pay2 x0 x1 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero (S := S72x40) hz]
  simp only [View.readAt_eq_ld, harg1.read_unread, harg2.read_unread, harg6.read_unread,
    View.ld_unit_zero (S := S64x6272) hz, View.ld_unit_zero (S := S6272x40) hz, View.ld_unit_zero (S := S72x40) hz]

/-- One whole-buffer store covers the accumulator. -/
theorem cover_one (w : S72x40.Idx → Elt F .f32) (y : S72x40.Idx) :
    ∃ p ∈ [(⟨Rect.unit ![0, 0] S72x40.size inb_S72x40_S72x40_0_0, w⟩ : View.Piece (Elt F) S72x40 .f32)], y ∈ p.1.set :=
  ⟨_, List.mem_singleton_self _, View.mem_set_unit_zero hz inb_S72x40_S72x40_0_0 y⟩

/-- LAST POINT, the result: the final arithmetic of rows 0..63 and row 64 of the accumulator JUST STORED and of the two
    rows of the level table, then the product with the classifier's transpose. -/
theorem out_last (c : Dev nD) (i : grid0.Coords) (arg1 : Memref sig .tc .vmem S64x6272 .f32) (harg1 : arg1.IsWhole) (arg2 : Memref sig .tc .vmem S6272x40 .f32) (harg2 : arg2.IsWhole) (arg3 : Memref sig .tc .vmem S2x40 .f32) (harg3 : arg3.IsWhole) (arg4 : Memref sig .tc .vmem S10x40 .f32) (harg4 : arg4.IsWhole) (arg5 : Memref sig .tc .vmem S64x10 .f32) (harg5 : arg5.IsWhole) (arg6 : Memref sig .tc .vmem S72x40 .f32) (harg6 : arg6.IsWhole) (hc0 : ¬cond0_0 i) (hc1 : cond0_1 i)
    (x0 : Vec F S64x6272 .f32) (x1 : Vec F S6272x40 .f32) (x2 : Vec F S2x40 .f32) (x3 : Vec F S10x40 .f32) (xs0 : Vec F S72x40 .f32) :
    out0_C_4 c i arg1 harg1 arg2 harg2 arg3 harg3 arg4 harg4 arg5 harg5 arg6 harg6 hc0 hc1 x0 x1 x2 x3 xs0
      = k0_pay3 (rowsOf (k0_pay2 x0 x1 xs0)) (totOf (k0_pay2 x0 x1 xs0)) (lvl0Of x2) (lvl1Of x2) x3 := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero (S := S64x10) hz]
  simp only [View.readCov_eq_canon_ld _ _ _ (cover_one _), View.canon_unit_zero (S := S72x40) hz,
    View.readAt_eq_ld, harg1.read_unread, harg2.read_unread, harg3.read_unread, harg4.read_unread, harg6.read_unread,
    View.ld_unit_zero (S := S64x6272) hz, View.ld_unit_zero (S := S6272x40) hz, View.ld_unit_zero (S := S72x40) hz,
    View.ld_unit_zero (S := S10x40) hz]

end Cert.KernelIdeal.Hv

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Level.lean ====
/-
  The level of a pixel. A pixel value `x` is sent to `min 1 (max 0 (round x))`, rounding to the nearest integer with
  ties to even. For a FINITE `x` the rounded value is an integer, so the clipped value is exactly `0` or `1`: the
  level is a bit. Read as a real weight (the kernel's side) it multiplies a position vector; converted to a signed
  32-bit integer (the reference's side) it is the row of the level table. This module states those facts on the
  extended reals and the reals, with no program in sight.
-/
import Idealize.ShloMosaic.PureOps.Ideal
import Idealize.ShloMosaic.PureOps.Ideal.Laws

noncomputable section

namespace Cert.Hv

open Idealize.ShloMosaic

/-- The f32 word of `1.0` denotes `1`. -/
theorem one_f32 : Ideal.ofBits .f32 0x3F800000#32 = 1 := by
  simp [Ideal.ofBits, Ideal.ieee, -EReal.coe_mul]; norm_num

/-- The bf16 word of `1.0` denotes `1`. -/
theorem one_bf16 : Ideal.ofBits .bf16 0x3F80#16 = 1 := by
  simp [Ideal.ofBits, Ideal.ieee, -EReal.coe_mul]; norm_num

/-- The level of a real pixel, as a real: its nearest integer (ties to even) clipped to `[0, 1]`. -/
def lvlR (r : ℝ) : ℝ := min 1 (max 0 ((Ideal.roundHalfEven r : ℤ) : ℝ))

/-- An integer clipped to `[0, 1]` is `0` or `1`. -/
theorem clip_int (z : ℤ) : min (1 : ℝ) (max 0 (z : ℝ)) = 0 ∨ min (1 : ℝ) (max 0 (z : ℝ)) = 1 := by
  rcases le_or_gt z 0 with h | h
  · left
    have : (z : ℝ) ≤ 0 := by exact_mod_cast h
    rw [max_eq_left this]; exact min_eq_right zero_le_one
  · right
    have : (1 : ℝ) ≤ (z : ℝ) := by exact_mod_cast h
    rw [max_eq_right (le_trans zero_le_one this)]; exact min_eq_left this

/-- The level is a bit. -/
theorem lvlR_cases (r : ℝ) : lvlR r = 0 ∨ lvlR r = 1 := clip_int _

/-- The level of a pixel on the extended reals: the product with `1`, the rounding to the nearest integer (ties to even),
    the clip to `[0, 1]`. -/
def lvlE (x : EReal) : EReal := min 1 (max 0 (Ideal.liftRound Ideal.roundHalfEven (x * 1)))

/-- The level of a finite pixel on the extended reals — the product with `1`, the rounding, the two clips — is the
    real level. -/
theorem lvl_coe (r : ℝ) :
    lvlE (r : EReal) = ((lvlR r : ℝ) : EReal) := by
  rw [lvlE, mul_one, Ideal.liftRound_coe, lvlR, EReal.coe_strictMono.monotone.map_min,
    EReal.coe_strictMono.monotone.map_max, EReal.coe_one, EReal.coe_zero]

end Cert.Hv

end
-- ==== Proof.KernelVal.lean ====
/-
  The kernel's arithmetic read at an index, on the extended reals.

  One tile's update of the [72, 40] accumulator: entry (r, d) gains the sum over the tile's 6272 pixels k of the extended
  left operand at (r, k) times the position weight at (k, d). The extended left operand is the pixel's level on the 64
  image rows and the constant one on the eight added rows, so row r < 64 accumulates the level-weighted sum of the
  position weights of image r, and row 64 their plain sum.

  The final arithmetic: entry (b, d) of the bound sum is  level0(d) · total(d) + perImage(b, d) · (level1(d) − level0(d))
  with total = row 64 and perImage = rows 0..63 of the accumulator.
-/
import proofs.«125885_j16071767621701_1_alg».proof.Proof.Pieces
import proofs.«125885_j16071767621701_1_alg».proof.Proof.LibOuterDot
import proofs.«125885_j16071767621701_1_alg».proof.Proof.Level
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Hv

open Cert.KernelIdeal Cert.KernelIdeal.Gen

/-- Row `r`, column `k` of the extended left operand of a tile with pixel block `x0`: the level of the pixel on an
    image row, one on the eight added rows. -/
def ext (x0 : Vec Ideal S64x6272 .f32) (r : Fin 72) (k : Fin 6272) : EReal :=
  if h : r.val < 64 then Cert.Hv.lvlE (x0 (ix2 (⟨r.val, h⟩ : Fin 64) k)) else 1

/-- The pixel block with the eight rows of ones appended below it, read at (r, k). -/
theorem concat_ones_apply (v : FVec Ideal S64x6272 .bf16) (r : Fin 72) (k : Fin 6272) :
    concatenate S72x6272 0 [⟨S64x6272, v⟩, ⟨S8x6272, broadcast S8x6272 (Scalar.ofBits (F := Ideal) .bf16 0x3F80#16)⟩]
        concatenates_S64x6272_S8x6272_S72x6272_d0 (ix2 r k)
      = if h : r.val < 64 then v (ix2 (⟨r.val, h⟩ : Fin 64) k) else 1 := by
  split
  · rename_i h
    exact concatenate_pair_apply_left (t := S72x6272) (s₁ := S64x6272) (s₂ := S8x6272) (0 : Fin 2) _ _
      concatenates_S64x6272_S8x6272_S72x6272_d0 (ix2 r k) rfl
      (ix2 (⟨r.val, h⟩ : Fin 64) k) (fun b => by match b with | ⟨0, _⟩ => rfl | ⟨1, _⟩ => rfl)
  · rename_i h
    refine (concatenate_pair_apply_right (t := S72x6272) (s₁ := S64x6272) (s₂ := S8x6272) (0 : Fin 2) _ _
      concatenates_S64x6272_S8x6272_S72x6272_d0 (ix2 r k) rfl rfl
      (ix2 (⟨r.val - 64, by have := r.isLt; omega⟩ : Fin 8) k)
      (fun b hb => by match b with | ⟨0, _⟩ => exact absurd rfl hb | ⟨1, _⟩ => rfl)
      (by show r.val - 64 + 64 = r.val; omega)).trans ?_
    exact Cert.Hv.one_bf16

/-- ONE TILE'S UPDATE read at (r, d). -/
theorem pay2_apply (x0 : Vec Ideal S64x6272 .f32) (x1 : Vec Ideal S6272x40 .f32) (acc : Vec Ideal S72x40 .f32)
    (r : Fin 72) (d : Fin 40) :
    k0_pay2 x0 x1 acc (ix2 r d) = acc (ix2 r d) + ∑ k : Fin 6272, ext x0 r k * x1 (ix2 k d) := by
  unfold k0_pay2
  simp only [shapeCast_self]
  rw [addf_apply, Cert.LibOuterDot.matmul_zero_ix2 _ rfl rfl rfl rfl rfl rfl rfl rfl]
  refine congrArg (acc (ix2 r d) + ·) (Finset.sum_congr rfl fun k _ => ?_)
  rw [concat_ones_apply, truncf_apply]
  unfold ext
  split
  · rename_i h
    rw [truncf_apply, minimumf_apply, maximumf_apply, shapeCast_self]
    show min (Ideal.ofBits .f32 0x3F800000#32) (max (Ideal.ofBits .f32 0x00000000#32)
      (Ideal.liftRound Ideal.roundHalfEven (x0 (ix2 (⟨r.val, h⟩ : Fin 64) k) * Ideal.ofBits .f32 0x3F800000#32))) * _ = _
    rw [Cert.Hv.one_f32, Ideal.ofBits_zero_f32]
    rfl
  · rfl

/-- The clear value of the accumulator is zero. -/
theorem pay1_apply (i : S72x40.Idx) : k0_pay1 (F := Ideal) i = 0 := by
  unfold k0_pay1
  simp only [shapeCast_self]
  exact Ideal.ofBits_zero_f32

/-- Rows 0..63 of an accumulator at (b, d). -/
theorem rowsOf_apply (acc : Vec Ideal S72x40 .f32) (b : Fin 64) (d : Fin 40) :
    rowsOf acc (ix2 b d) = acc (ix2 ⟨b.val, by have := b.isLt; omega⟩ d) :=
  congrArg acc (funext fun a => Fin.ext (by
    match a with
    | ⟨0, _⟩ => show 0 + 1 * b.val = b.val; omega
    | ⟨1, _⟩ => show 0 + 1 * d.val = d.val; omega))

/-- Row 64 of an accumulator at column d. -/
theorem totOf_apply (acc : Vec Ideal S72x40 .f32) (z : Fin 1) (d : Fin 40) :
    totOf acc (ix2 z d) = acc (ix2 ⟨64, by decide⟩ d) :=
  congrArg acc (funext fun a => Fin.ext (by
    match a with
    | ⟨0, _⟩ => show 64 + 1 * z.val = 64; have := z.isLt; omega
    | ⟨1, _⟩ => show 0 + 1 * d.val = d.val; omega))

/-- Row 0 of the level table at column d. -/
theorem lvl0Of_apply (lw : Vec Ideal S2x40 .f32) (z : Fin 1) (d : Fin 40) :
    lvl0Of lw (ix2 z d) = lw (ix2 ⟨0, by decide⟩ d) :=
  congrArg lw (funext fun a => Fin.ext (by
    match a with
    | ⟨0, _⟩ => show 0 + 1 * z.val = 0; have := z.isLt; omega
    | ⟨1, _⟩ => show 0 + 1 * d.val = d.val; omega))

/-- Row 1 of the level table at column d. -/
theorem lvl1Of_apply (lw : Vec Ideal S2x40 .f32) (z : Fin 1) (d : Fin 40) :
    lvl1Of lw (ix2 z d) = lw (ix2 ⟨1, by decide⟩ d) :=
  congrArg lw (funext fun a => Fin.ext (by
    match a with
    | ⟨0, _⟩ => show 1 + 1 * z.val = 1; have := z.isLt; omega
    | ⟨1, _⟩ => show 0 + 1 * d.val = d.val; omega))

/-- A [1, 40] row broadcast to [64, 40], read at (b, d). -/
theorem bcast_row_apply (v : FVec Ideal S1x40 .f32) (b : Fin 64) (d : Fin 40) :
    broadcastTo S64x40 v broadcasts_S1x40_S64x40 (ix2 b d) = v (ix2 (0 : Fin 1) d) :=
  broadcastTo_apply v broadcasts_S1x40_S64x40 (ix2 b d) (ix2 (0 : Fin 1) d) (fun a => by
    match a with
    | ⟨0, _⟩ => show 0 = if (1 : Nat) = 1 then 0 else b.val; rw [if_pos rfl]
    | ⟨1, _⟩ => show d.val = if (40 : Nat) = 1 then 0 else d.val; rw [if_neg (by decide)])

/-- The bound sum the kernel forms from an accumulator and the level table. -/
abbrev boundK (acc : Vec Ideal S72x40 .f32) (lw : Vec Ideal S2x40 .f32) : FVec Ideal S64x40 .f32 :=
  addf (broadcastTo S64x40 (mulf (lvl0Of lw) (totOf acc)) broadcasts_S1x40_S64x40)
    (mulf (rowsOf acc) (broadcastTo S64x40 (subf (lvl1Of lw) (lvl0Of lw)) broadcasts_S1x40_S64x40))

/-- THE BOUND SUM read at (b, d). -/
theorem boundK_apply (acc : Vec Ideal S72x40 .f32) (lw : Vec Ideal S2x40 .f32) (b : Fin 64) (d : Fin 40) :
    boundK acc lw (ix2 b d)
      = lw (ix2 ⟨0, by decide⟩ d) * acc (ix2 ⟨64, by decide⟩ d)
        + acc (ix2 ⟨b.val, by have := b.isLt; omega⟩ d) * (lw (ix2 ⟨1, by decide⟩ d) - lw (ix2 ⟨0, by decide⟩ d)) := by
  show broadcastTo S64x40 (mulf (lvl0Of lw) (totOf acc)) broadcasts_S1x40_S64x40 (ix2 b d)
    + rowsOf acc (ix2 b d) * broadcastTo S64x40 (subf (lvl1Of lw) (lvl0Of lw)) broadcasts_S1x40_S64x40 (ix2 b d) = _
  rw [bcast_row_apply, bcast_row_apply, rowsOf_apply, mulf_apply, subf_apply, lvl0Of_apply, lvl1Of_apply, totOf_apply]

end Cert.KernelIdeal.Hv

end
-- ==== Proof.Algebra.lean ====
/-
  The algebra that joins the two programs, over abstract finite index sets.

  * A finite sum of reals, read on the extended reals, is the real sum.
  * A sum over `n` tiles of `T` consecutive positions each is the sum over all `n * T` positions.
  * The binding law. For bits `e p ∈ {0, 1}` selecting between two level values `l0`, `l1`, and weights `w p`:
      Σ_p w p · (if e p = 1 then l1 else l0) = l0 · Σ_p w p + (Σ_p e p · w p) · (l1 − l0),
    because the selected level is `l0 + e p · (l1 − l0)`. It is distributivity, so it is stated over the reals.
-/
import Mathlib.Data.EReal.Operations
import Mathlib.Algebra.BigOperators.Fin
import Mathlib.Algebra.BigOperators.Ring.Finset
import Mathlib.Logic.Equiv.Fin.Basic
import Mathlib.Tactic.Ring

noncomputable section

open scoped BigOperators

namespace Cert.Hv

/-- A finite sum of reals read on the extended reals is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Tile by tile is position by position: `n` tiles of `T` consecutive positions. -/
theorem sum_tiles {β : Type*} [AddCommMonoid β] (n T : ℕ) (f : Fin (n * T) → β) :
    (∑ s : Fin n, ∑ k : Fin T, f ⟨s.val * T + k.val, by
        have hs := s.isLt; have hk := k.isLt
        calc s.val * T + k.val < s.val * T + T := by omega
          _ = (s.val + 1) * T := by ring
          _ ≤ n * T := Nat.mul_le_mul_right T hs⟩) = ∑ p : Fin (n * T), f p := by
  rw [← Fintype.sum_prod_type', ← Equiv.sum_comp finProdFinEquiv f]
  refine Finset.sum_congr rfl fun x _ => congrArg f (Fin.ext ?_)
  show x.1.val * T + x.2.val = x.2.val + T * x.1.val
  ring

/-- The binding law over the reals. -/
theorem bind_real {P : Type*} (s : Finset P) (w e : P → ℝ) (l0 l1 : ℝ) (he : ∀ p, e p = 0 ∨ e p = 1) :
    ∑ p ∈ s, w p * (if e p = 1 then l1 else l0) = l0 * ∑ p ∈ s, w p + (∑ p ∈ s, e p * w p) * (l1 - l0) := by
  rw [Finset.mul_sum, Finset.sum_mul, ← Finset.sum_add_distrib]
  refine Finset.sum_congr rfl fun p _ => ?_
  rcases he p with h | h
  · rw [h, if_neg (by norm_num : ¬(0 : ℝ) = 1)]; ring
  · rw [h, if_pos rfl]; ring

end Cert.Hv

end
-- ==== Proof.Accum.lean ====
/-
  The accumulator over the grid.

  Grid point s stages columns 6272·s … 6272·s + 6271 of the flattened [64, 50176] pixel array and the same rows of the
  [50176, 40] position weights; the level table and the classifier are staged whole. After point n the [72, 40]
  accumulator holds, at (r, d), zero plus the sum over the points s ≤ n of that point's tile sum; after the last point
  this is the sum over ALL 50176 pixels p of the extended left operand at (r, p) times the position weight at (p, d).
-/
import proofs.«125885_j16071767621701_1_alg».proof.Proof.KernelVal
import proofs.«125885_j16071767621701_1_alg».proof.Proof.Algebra
import proofs.«125885_j16071767621701_1_alg».proof.Proof.Gen.KernelIdeal.Value

noncomputable section

open Idealize.ShloMosaic Idealize.ShloMosaic.TcCoe Idealize.ShloMosaic.ValueIdx Idealize.SL.Sem

namespace Cert.KernelIdeal.Hv

open Cert.KernelIdeal Cert.KernelIdeal.Gen

variable (m : (ℓ : Loc nD τ sig) → Buf (Elt Ideal) ℓ)

/-- The pixel block, the position-weight block, the level table and the classifier as point `t` stages them. -/
abbrev xblk (c : Dev nD) (t : Fin cfg0.N) : Vec Ideal S64x6272 .f32 := iblk m c 0 t
abbrev pblk (c : Dev nD) (t : Fin cfg0.N) : Vec Ideal S6272x40 .f32 := iblk m c 1 t
abbrev lblk (c : Dev nD) (t : Fin cfg0.N) : Vec Ideal S2x40 .f32 := iblk m c 2 t
abbrev cblk (c : Dev nD) (t : Fin cfg0.N) : Vec Ideal S10x40 .f32 := iblk m c 3 t

/-- The flattened pixel array, the position weights, the level table and the classifier as the region finds them. -/
abbrev xarr (c : Dev nD) : Vec Ideal S64x50176 .f32 := V m c main_v0
abbrev parr (c : Dev nD) : Vec Ideal S50176x40 .f32 := V m c main_arg1
abbrev larr (c : Dev nD) : Vec Ideal S2x40 .f32 := V m c main_arg2
abbrev carr (c : Dev nD) : Vec Ideal S10x40 .f32 := V m c main_arg3

theorem N8 : cfg0.N = 8 := N_0

/-- Where each window's block sits at point `t`. -/
theorem idx_x : ∀ t : Fin cfg0.N, win0_0.index t (0 : Fin 2) = 0 ∧ win0_0.index t (1 : Fin 2) = t.val :=
  (by decide +kernel : ∀ t : Fin grid0.N, _)
theorem idx_p : ∀ t : Fin cfg0.N, win0_1.index t (0 : Fin 2) = t.val ∧ win0_1.index t (1 : Fin 2) = 0 :=
  (by decide +kernel : ∀ t : Fin grid0.N, _)
theorem idx_l : ∀ t : Fin cfg0.N, win0_2.index t (0 : Fin 2) = 0 ∧ win0_2.index t (1 : Fin 2) = 0 :=
  (by decide +kernel : ∀ t : Fin grid0.N, _)
theorem idx_c : ∀ t : Fin cfg0.N, win0_3.index t (0 : Fin 2) = 0 ∧ win0_3.index t (1 : Fin 2) = 0 :=
  (by decide +kernel : ∀ t : Fin grid0.N, _)

/-- The pixel block of point `t` at (b, k) is the flattened pixel array at (b, 6272·t + k). -/
theorem xblk_apply (c : Dev nD) (t : Fin cfg0.N) (b : Fin 64) (k : Fin 6272) :
    xblk m c t (ix2 b k) = xarr m c (ix2 b (⟨t.val * 6272 + k.val, by
      have ht : t.val < 8 := lt_of_lt_of_eq t.isLt N8; have := k.isLt; omega⟩ : Fin 50176)) := by
  show iblk m c 0 t (ix2 b k) = V m c main_v0 _
  unfold iblk
  rw [View.read_apply]
  show V m c main_v0 _ = V m c main_v0 _
  congr 1
  funext a
  apply Fin.ext
  match a with
  | ⟨0, _⟩ => show win0_0.index t 0 * 64 + 1 * b.val = b.val; rw [(idx_x t).1]; omega
  | ⟨1, _⟩ => show win0_0.index t 1 * 6272 + 1 * k.val = t.val * 6272 + k.val; rw [(idx_x t).2]; omega

/-- The position-weight block of point `t` at (k, d) is the position weights at (6272·t + k, d). -/
theorem pblk_apply (c : Dev nD) (t : Fin cfg0.N) (k : Fin 6272) (d : Fin 40) :
    pblk m c t (ix2 k d) = parr m c (ix2 (⟨t.val * 6272 + k.val, by
      have ht : t.val < 8 := lt_of_lt_of_eq t.isLt N8; have := k.isLt; omega⟩ : Fin 50176) d) := by
  show iblk m c 1 t (ix2 k d) = V m c main_arg1 _
  unfold iblk
  rw [View.read_apply]
  show V m c main_arg1 _ = V m c main_arg1 _
  congr 1
  funext a
  apply Fin.ext
  match a with
  | ⟨0, _⟩ => show win0_1.index t 0 * 6272 + 1 * k.val = t.val * 6272 + k.val; rw [(idx_p t).1]; omega
  | ⟨1, _⟩ => show win0_1.index t 1 * 40 + 1 * d.val = d.val; rw [(idx_p t).2]; omega

/-- The level table is staged whole. -/
theorem lblk_apply (c : Dev nD) (t : Fin cfg0.N) (z : Fin 2) (d : Fin 40) :
    lblk m c t (ix2 z d) = larr m c (ix2 z d) := by
  show iblk m c 2 t (ix2 z d) = V m c main_arg2 _
  unfold iblk
  rw [View.read_apply]
  show V m c main_arg2 _ = V m c main_arg2 _
  congr 1
  funext a
  apply Fin.ext
  match a with
  | ⟨0, _⟩ => show win0_2.index t 0 * 2 + 1 * z.val = z.val; rw [(idx_l t).1]; omega
  | ⟨1, _⟩ => show win0_2.index t 1 * 40 + 1 * d.val = d.val; rw [(idx_l t).2]; omega

/-- The classifier is staged whole. -/
theorem cblk_eq (c : Dev nD) (t : Fin cfg0.N) : cblk m c t = carr m c := by
  funext y
  obtain ⟨z, d, rfl⟩ : ∃ (z : Fin 10) (d : Fin 40), y = ix2 z d := ⟨y 0, y 1, eq_ix2 y⟩
  show iblk m c 3 t (ix2 z d) = V m c main_arg3 _
  unfold iblk
  rw [View.read_apply]
  show V m c main_arg3 _ = V m c main_arg3 _
  congr 1
  funext a
  apply Fin.ext
  match a with
  | ⟨0, _⟩ => show win0_3.index t 0 * 10 + 1 * z.val = z.val; rw [(idx_c t).1]; omega
  | ⟨1, _⟩ => show win0_3.index t 1 * 40 + 1 * d.val = d.val; rw [(idx_c t).2]; omega

/-- Point `s`'s addend to the accumulator at index `i`: its tile sum (zero past the grid, where it is never used). -/
def tileTerm (c : Dev nD) (s : ℕ) (i : S72x40.Idx) : EReal :=
  if h : s < cfg0.N then ∑ k : Fin 6272, ext (xblk m c ⟨s, h⟩) (i 0) k * pblk m c ⟨s, h⟩ (ix2 k (i 1)) else 0

/-- THE ACCUMULATOR AFTER POINT n: zero plus the tile sums of the points up to n. -/
theorem scratch_fold (c : Dev nD) (n : ℕ) (hn : n < cfg0.N) (i : S72x40.Idx) :
    (outsAt0 m c n hn).2 i = 0 + ∑ s ∈ Finset.range (n + 1), tileTerm m c s i := by
  have hN : cfg0.N = 8 := N8
  rw [Cert.KernelIdeal.Value.soutsAt0_0_sweep m c n hn]
  have key := Pipeline.accAt_add_apply (N := cfg0.N)
    (fun n h => Cert.KernelIdeal.Value.scAt0_0 m c n h (VS0_0.read (Elt Ideal) VS0_0.junk))
    (Cert.KernelIdeal.Value.scAt0_0 m c) (fun _ => (0 : EReal)) (tileTerm m c) 0 7
    (fun h i => by
      obtain ⟨r, d, rfl⟩ : ∃ (r : Fin 72) (d : Fin 40), i = ix2 r d := ⟨i 0, i 1, eq_ix2 i⟩
      unfold Cert.KernelIdeal.Value.scAt0_0
      rw [dif_pos (Nat.zero_mod 8), dif_neg (by decide), scr_first, pay2_apply, pay1_apply]
      unfold tileTerm
      rw [dif_pos h])
    (fun n h acc i h0 h7 => by
      obtain ⟨r, d, rfl⟩ : ∃ (r : Fin 72) (d : Fin 40), i = ix2 r d := ⟨i 0, i 1, eq_ix2 i⟩
      have hne : ¬n % 8 = 0 := by omega
      unfold Cert.KernelIdeal.Value.scAt0_0
      rw [dif_neg hne]
      by_cases h1 : n % 8 = 7
      · rw [dif_pos h1, scr_last, pay2_apply]
        unfold tileTerm
        rw [dif_pos h]
      · rw [dif_neg h1, scr_mid, pay2_apply]
        unfold tileTerm
        rw [dif_pos h])
    n (by omega) (by omega) i
  simpa only [Nat.zero_add] using key

end Cert.KernelIdeal.Hv

end
-- ==== Proof.Total.lean ====
/-
  The accumulator after the last point, and the kernel's bound sum over real inputs.

  The eight tile sums are one sum over all 50176 pixels: after the last point the accumulator at (r, d) is the sum over
  the pixels p of the extended left operand at (r, p) times the position weight at (p, d). For real inputs row 64 is the
  real sum of the position weights, and row b < 64 the real sum of the level bits of image b times the position
  weights; the kernel's bound sum  level0 · total + perImage · (level1 − level0)  is then, by the binding law, the sum
  over the pixels of the position weight times the level row the pixel's bit selects.
-/
import proofs.«125885_j16071767621701_1_alg».proof.Proof.Accum

noncomputable section

open Idealize.ShloMosaic Idealize.ShloMosaic.TcCoe Idealize.ShloMosaic.ValueIdx Idealize.SL.Sem

namespace Cert.KernelIdeal.Hv

open Cert.KernelIdeal Cert.KernelIdeal.Gen

variable (m : (ℓ : Loc nD τ sig) → Buf (Elt Ideal) ℓ)

/-- The extended left operand over the whole flattened pixel array: the level on an image row, one on an added row. -/
def extAll (xf : Vec Ideal S64x50176 .f32) (r : Fin 72) (p : Fin 50176) : EReal :=
  if h : r.val < 64 then Cert.Hv.lvlE (xf (ix2 (⟨r.val, h⟩ : Fin 64) p)) else 1

theorem h7 : 7 < cfg0.N := by rw [N8]; decide

/-- Point `s`'s tile sum at (r, d), over the whole arrays: the pixels 6272·s … 6272·s + 6271. -/
theorem tileTerm_eq (c : Dev nD) (s : Fin 8) (r : Fin 72) (d : Fin 40) :
    tileTerm m c s.val (ix2 r d)
      = ∑ k : Fin 6272, (fun p : Fin (8 * 6272) => extAll (xarr m c) r p * parr m c (ix2 p d))
          ⟨s.val * 6272 + k.val, by have := s.isLt; have := k.isLt; omega⟩ := by
  unfold tileTerm
  rw [dif_pos (lt_of_lt_of_eq s.isLt N8.symm)]
  refine Finset.sum_congr rfl fun k _ => ?_
  show ext (xblk m c ⟨s.val, _⟩) r k * pblk m c ⟨s.val, _⟩ (ix2 k d) = _
  rw [pblk_apply]
  refine congrArg (· * _) ?_
  unfold ext extAll
  split
  · rw [xblk_apply]
  · rfl

/-- THE ACCUMULATOR AFTER THE LAST POINT at (r, d): the sum over all pixels. -/
theorem scratch_last (c : Dev nD) (r : Fin 72) (d : Fin 40) :
    (outsAt0 m c 7 h7).2 (ix2 r d) = ∑ p : Fin 50176, extAll (xarr m c) r p * parr m c (ix2 p d) := by
  rw [scratch_fold, zero_add, Finset.sum_range]
  refine Eq.trans (Finset.sum_congr rfl fun s _ => tileTerm_eq m c s r d) ?_
  exact Cert.Hv.sum_tiles 8 6272 (fun p : Fin (8 * 6272) => extAll (xarr m c) r p * parr m c (ix2 p d))

/-- THE KERNEL'S BOUND SUM at (b, d), for real inputs. -/
theorem kernel_bound (c : Dev nD) (t : Fin cfg0.N) (xr : S64x50176.Idx → ℝ) (pwr : S50176x40.Idx → ℝ) (lwr : S2x40.Idx → ℝ)
    (hx : ∀ i, xarr m c i = ((xr i : ℝ) : EReal)) (hpw : ∀ i, parr m c i = ((pwr i : ℝ) : EReal))
    (hlw : ∀ i, larr m c i = ((lwr i : ℝ) : EReal)) (b : Fin 64) (d : Fin 40) :
    boundK (outsAt0 m c 7 h7).2 (lblk m c t) (ix2 b d)
      = ((∑ p : Fin 50176, pwr (ix2 p d)
          * (if Cert.Hv.lvlR (xr (ix2 b p)) = 1 then lwr (ix2 1 d) else lwr (ix2 0 d)) : ℝ) : EReal) := by
  have h64 : ∑ p : Fin 50176, extAll (xarr m c) (⟨64, by decide⟩ : Fin 72) p * parr m c (ix2 p d)
      = ((∑ p : Fin 50176, pwr (ix2 p d) : ℝ) : EReal) := by
    rw [← Cert.Hv.coe_sum]
    refine Finset.sum_congr rfl fun p _ => ?_
    unfold extAll
    rw [dif_neg (by decide), one_mul, hpw]
  have hb : ∑ p : Fin 50176, extAll (xarr m c) (⟨b.val, by have := b.isLt; omega⟩ : Fin 72) p * parr m c (ix2 p d)
      = ((∑ p : Fin 50176, Cert.Hv.lvlR (xr (ix2 b p)) * pwr (ix2 p d) : ℝ) : EReal) := by
    rw [← Cert.Hv.coe_sum]
    refine Finset.sum_congr rfl fun p _ => ?_
    unfold extAll
    rw [dif_pos b.isLt, hx, Cert.Hv.lvl_coe, hpw, ← EReal.coe_mul]
  rw [boundK_apply, scratch_last, scratch_last, lblk_apply, lblk_apply, hlw, hlw, h64, hb, ← EReal.coe_sub,
    ← EReal.coe_mul, ← EReal.coe_mul, ← EReal.coe_add]
  refine congrArg (fun v : ℝ => (v : EReal)) ?_
  exact (Cert.Hv.bind_real Finset.univ (fun p : Fin 50176 => pwr (ix2 p d)) (fun p => Cert.Hv.lvlR (xr (ix2 b p)))
    (lwr (ix2 0 d)) (lwr (ix2 1 d)) (fun p => Cert.Hv.lvlR_cases _)).symm

end Cert.KernelIdeal.Hv

end
-- ==== Proof.RefSum.lean ====
/-
  The reference's pixel sum read at an index, over real witnesses.

  With `X` the pixels as a `[64, 50176]` array, the reference computes per pixel the level
  `e = min 1 (max 0 (round (x · 1)))`, converts it to a signed 32-bit integer, adds 2 when that integer is negative,
  reads that row of the `[2, 40]` level table, multiplies by the position weights and sums over the 50176 pixels.
  For a real pixel `r` the level is the bit `lvlR r`, the integer is `0` or `1`, never negative, so the row read is
  row 1 when `lvlR r = 1` and row 0 otherwise. Each stage is read at explicit coordinates; the sum of real terms read
  on the extended reals is the real sum.
-/
import proofs.«125885_j16071767621701_1_alg».proof.Proof.Gen.ReferenceIdeal.Read
import proofs.«125885_j16071767621701_1_alg».proof.Proof.Level
import proofs.«125885_j16071767621701_1_alg».proof.Proof.Algebra
import Idealize.ShloMosaic.Lib.ValueIdx
import Idealize.ShloMosaic.PureOps.Ideal
import Idealize.ShloMosaic.PureOps.Ideal.Laws

noncomputable section

open scoped BigOperators

namespace Cert.ReferenceIdeal.Hv
open Cert.ReferenceIdeal Cert.ReferenceIdeal.Gen Cert.ReferenceIdeal.Read Idealize.ShloMosaic Idealize.ShloMosaic.ValueIdx

/-! ## The gather of a table row, read at `(b, p, d)` -/

/-- The row gather's dimension numbers: operand `[2, 40]`, start indices `[64, 50176, 1]`, result `[64, 50176, 40]`;
    the result's last axis is the row's column, the operand's row axis is collapsed and indexed by the start index. -/
abbrev rowDims := gather_S2x40_S64x50176x1_S64x50176x40_2_0_n_n_0_2_140

/-- THE ROW GATHER READ AT `(b, p, d)`: the operand at column `d` of the row the start index `idx[b, p, 0]` names, read
    signed and clamped into `[0, 1]`. -/
theorem gather_row_apply {α : Type} {w : Nat} (x : S2x40.Idx → α) (idx : IVec S64x50176x1 w)
    (b : Fin 64) (p : Fin 50176) (d : Fin 40) :
    Host.gather rowDims x idx (ix3 b p d)
      = x (ix2 (⟨min (idx (ix3 b p (0 : Fin 1))).toInt.toNat (2 - 1), by omega⟩ : Fin 2) d) := by
  unfold Host.gather
  congr 1
  funext a
  refine Fin.ext ?_
  match a with
  | ⟨0, _⟩ =>
    -- the row axis: the clamped start index, no batching coordinate, no offset (the axis is collapsed)
    show rowDims.start (ix3 b p d) idx 0 + rowDims.batchCoord (ix3 b p d) 0 + rowDims.offCoord (ix3 b p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b p d) ⟨List.idxOf (0 : Fin 2) rowDims.startIndexMap,
        List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    -- the column axis: start 0 (the start index map does not name it), no batching coordinate, offset `d`
    show rowDims.start (ix3 b p d) idx 1 + rowDims.batchCoord (ix3 b p d) 1 + rowDims.offCoord (ix3 b p d) 1 = _
    rw [GatherDims.batchCoord_eq_zero _ _ _ List.not_mem_nil]
    unfold GatherDims.start
    rw [dif_neg (by decide)]
    simp only [Nat.add_zero, Nat.zero_add]
    rfl

/-- The gather at a start index that is the word `1`: row 1. -/
theorem gather_row_one {α : Type} (x : S2x40.Idx → α) (idx : IVec S64x50176x1 32)
    (b : Fin 64) (p : Fin 50176) (d : Fin 40) (h : idx (ix3 b p (0 : Fin 1)) = 1#32) :
    Host.gather rowDims x idx (ix3 b p d) = x (ix2 (1 : Fin 2) d) := by
  rw [gather_row_apply]
  exact congrArg x (congrArg (fun a => ix2 a d) (Fin.ext (by show min _ _ = 1; rw [h]; decide)))

/-- The gather at a start index that is the word `0`: row 0. -/
theorem gather_row_zero {α : Type} (x : S2x40.Idx → α) (idx : IVec S64x50176x1 32)
    (b : Fin 64) (p : Fin 50176) (d : Fin 40) (h : idx (ix3 b p (0 : Fin 1)) = 0#32) :
    Host.gather rowDims x idx (ix3 b p d) = x (ix2 (0 : Fin 2) d) := by
  rw [gather_row_apply]
  exact congrArg x (congrArg (fun a => ix2 a d) (Fin.ext (by show min _ _ = 0; rw [h]; decide)))

/-! ## The index word of a real pixel -/

/-- The integer the reference makes of a level `e`: truncate toward zero and clamp to 32 signed bits, then add 2 if the
    result is negative. -/
def rowWord (e : EReal) : BitVec 32 :=
  Scalar.select (IntOp.cmpi .slt (Ideal.fptosi 32 e) 0#32) (IntOp.addi (Ideal.fptosi 32 e) 2#32) (Ideal.fptosi 32 e)

/-- The level `0` converts to the word `0`. -/
theorem fptosi_zero : Ideal.fptosi 32 (((0 : ℝ)) : EReal) = 0#32 := by
  rw [Ideal.fptosi, Ideal.toIntClamped_coe]
  norm_num

/-- The level `1` converts to the word `1`. -/
theorem fptosi_one : Ideal.fptosi 32 (((1 : ℝ)) : EReal) = 1#32 := by
  rw [Ideal.fptosi, Ideal.toIntClamped_coe]
  norm_num

/-- The index word of a real pixel: `1` when its level is `1`, else `0` (neither is negative, so nothing is added). -/
theorem rowWord_lvl (r : ℝ) :
    rowWord ((Cert.Hv.lvlR r : ℝ) : EReal) = if Cert.Hv.lvlR r = 1 then 1#32 else 0#32 := by
  rcases Cert.Hv.lvlR_cases r with h | h
  · rw [h, if_neg (by norm_num : ¬(0 : ℝ) = 1), rowWord, fptosi_zero]; decide
  · rw [h, if_pos rfl, rowWord, fptosi_one]; decide

/-! ## The stages at a pixel -/

/-- The clipped, rounded pixel at `(b, p)` is the level of the reshaped pixel there. -/
theorem level_apply (X : (⟨S64x224x224, .f32⟩ : BufTy).Contents (Elt Ideal)) (i : S64x50176.Idx) :
    val_main_v4 (F := Ideal) X i = Cert.Hv.lvlE (val_main_v0 (F := Ideal) X i) := by
  rw [val_main_v4_apply, val_main_call1_v4_apply, val_main_call1_v3_apply, val_main_c_0_apply,
    val_main_call1_v2_apply, val_main_call1_v1_apply, val_main_call1_v0_apply, val_main_c_apply,
    val_main_v3_apply, val_main_v2_apply, val_main_v1_apply, val_main_cst_apply]
  simp only [Ideal.minimumf_def, Ideal.maximumf_def, Ideal.hostUnary_roundeven_def, Ideal.mulf_def, Ideal.ofBits_def,
    Cert.Hv.one_f32, Cert.Hv.lvlE]
  have h1 : (FloatOps.sitofp (F := Ideal) .f32 (1#32 : BitVec 32) : EReal) = 1 := by
    show (((1#32 : BitVec 32).toInt : ℝ) : EReal) = 1
    rw [show (1#32 : BitVec 32).toInt = 1 by decide]; norm_num
  have h0 : (FloatOps.sitofp (F := Ideal) .f32 (0#32 : BitVec 32) : EReal) = 0 := by
    show (((0#32 : BitVec 32).toInt : ℝ) : EReal) = 0
    rw [show (0#32 : BitVec 32).toInt = 0 by decide]; norm_num
  rw [h1, h0]

/-- The start index word at `(b, p)` is the index word of the level there. -/
theorem word_apply (X : (⟨S64x224x224, .f32⟩ : BufTy).Contents (Elt Ideal)) (b : Fin 64) (p : Fin 50176) :
    val_main_v11 (F := Ideal) X (ix3 b p (0 : Fin 1)) = rowWord (val_main_v4 (F := Ideal) X (ix2 b p)) := by
  have hi : idx_main_v11 (ix3 b p (0 : Fin 1)) = ix2 b p :=
    funext fun a => Fin.ext (by match a with | ⟨0, _⟩ => rfl | ⟨1, _⟩ => rfl)
  rw [val_main_v11_apply, hi, val_main_v10_apply, val_main_v7_apply, val_main_v9_apply, val_main_v5_apply,
    val_main_v6_apply, val_main_c_1_apply, val_main_v8_apply, val_main_c_2_apply]
  rfl

/-- The gathered table element at `(b, p, d)` for a real pixel: row 1 when the pixel's level is 1, else row 0. -/
theorem row_apply (X : (⟨S64x224x224, .f32⟩ : BufTy).Contents (Elt Ideal)) (LW : (⟨S2x40, .f32⟩ : BufTy).Contents (Elt Ideal))
    (xr : S64x50176.Idx → ℝ) (hx : ∀ i, val_main_v0 (F := Ideal) X i = ((xr i : ℝ) : EReal))
    (b : Fin 64) (p : Fin 50176) (d : Fin 40) :
    val_main_v12 (F := Ideal) X LW (ix3 b p d)
      = if Cert.Hv.lvlR (xr (ix2 b p)) = 1 then LW (ix2 (1 : Fin 2) d) else LW (ix2 (0 : Fin 2) d) := by
  have hw : val_main_v11 (F := Ideal) X (ix3 b p (0 : Fin 1))
      = if Cert.Hv.lvlR (xr (ix2 b p)) = 1 then 1#32 else 0#32 := by
    rw [word_apply, level_apply, hx, Cert.Hv.lvl_coe, rowWord_lvl]
  unfold val_main_v12
  by_cases h : Cert.Hv.lvlR (xr (ix2 b p)) = 1
  · rw [if_pos h] at hw ⊢
    exact gather_row_one LW _ b p d hw
  · rw [if_neg h] at hw ⊢
    exact gather_row_zero LW _ b p d hw

/-- The position weight at `(b, p, d)` is the weight at `(p, d)`. -/
theorem weight_apply (PW : (⟨S50176x40, .f32⟩ : BufTy).Contents (Elt Ideal)) (b : Fin 64) (p : Fin 50176) (d : Fin 40) :
    val_main_v14 (F := Ideal) PW (ix3 b p d) = PW (ix2 p d) := by
  have hi : idx_main_v13 (idx_main_v14 (ix3 b p d)) = ix2 p d :=
    funext fun a => Fin.ext (by match a with | ⟨0, _⟩ => rfl | ⟨1, _⟩ => rfl)
  rw [val_main_v14_apply, val_main_v13_apply, hi]

/-! ## The sum -/

/-- The reference's sum over the pixels at image b and coordinate d, for real inputs: each pixel contributes its
    position weight times the level row its level selects. -/
theorem ref_sum (X : (⟨S64x224x224, .f32⟩ : BufTy).Contents (Elt Ideal)) (PW : (⟨S50176x40, .f32⟩ : BufTy).Contents (Elt Ideal))
    (LW : (⟨S2x40, .f32⟩ : BufTy).Contents (Elt Ideal))
    (xr : S64x50176.Idx → ℝ) (pwr : S50176x40.Idx → ℝ) (lwr : S2x40.Idx → ℝ)
    (hx : ∀ i, val_main_v0 (F := Ideal) X i = ((xr i : ℝ) : EReal)) (hpw : ∀ i, PW i = ((pwr i : ℝ) : EReal))
    (hlw : ∀ i, LW i = ((lwr i : ℝ) : EReal)) (b : Fin 64) (d : Fin 40) :
    val_main_v16 (F := Ideal) X PW LW (ix2 b d)
      = ((∑ p : Fin 50176, pwr (ix2 p d) * (if Cert.Hv.lvlR (xr (ix2 b p)) = 1 then lwr (ix2 1 d) else lwr (ix2 0 d)) : ℝ) : EReal) := by
  rw [val_main_v16_apply, val_main_cst_3_apply, Ideal.ofBits_def, Ideal.ofBits_zero_f32, zero_add,
    ← Cert.Hv.coe_sum]
  refine Finset.sum_congr rfl fun p _ => ?_
  have hi : idx_main_v16 (ix2 b d) p = ix3 b p d :=
    funext fun a => Fin.ext (by match a with | ⟨0, _⟩ => rfl | ⟨1, _⟩ => rfl | ⟨2, _⟩ => rfl)
  rw [hi, val_main_v15_apply, Ideal.mulf_def, weight_apply, row_apply X LW xr hx, hpw, EReal.coe_mul]
  congr 1
  by_cases h : Cert.Hv.lvlR (xr (ix2 b p)) = 1
  · rw [if_pos h, if_pos h, hlw]
  · rw [if_neg h, if_neg h, hlw]

end Cert.ReferenceIdeal.Hv

end
-- ==== Proof.Finite.lean ====
import proofs.«125885_j16071767621701_1_alg».proof.Pre_finite_inputs
import proofs.«125885_j16071767621701_1_alg».proof.Proof.Gen.Pre_finite_inputs
import Idealize.ShloMosaic.PureOps.Ideal
import Idealize.ShloMosaic.Lib.ReduceAll
import Idealize.ShloMosaic.Lib.ValueIdx

/-!
  From the precondition to real entries. The precondition is a conjunction of four statements
  "every entry of the argument has absolute value below +∞", each an `and`-reduction of the array of
  comparison words over all axes. Over the extended reals the absolute value is `max x (-x)`, which is
  `+∞` at both infinities, so an entry whose absolute value is below `+∞` is a real number.
-/

noncomputable section

namespace Cert.Hv
open Idealize.ShloMosaic

/-- The rank-0 shape has exactly one index. -/
instance : Subsingleton Cert.Pre_finite_inputs.S_.Idx := ⟨fun a b => funext fun d => d.elim0⟩

/-- The 32-bit pattern with exponent all ones and significand zero, sign clear, denotes `+∞`. -/
theorem ofBits_inf : Ideal.ofBits .f32 0x7F800000#32 = (⊤ : EReal) := by
  simp [Ideal.ofBits, Ideal.ieee]

/-- An extended real whose absolute value `max x (-x)` is below `+∞` is a real: at `-∞` the maximum is
    `-(-∞) = +∞`, at `+∞` it is `+∞` itself, and neither is below `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- One entry: where the comparison word "`|v i|` is less than the splat of `+∞`" is 1, `v i` is a real.
    The splat of a rank-0 constant reads that constant at every index, and the comparison word is 1
    exactly when the strict inequality holds. -/
theorem real_of_cmp {t : Shape} (hb : Cert.Pre_finite_inputs.S_.BroadcastsInDim t (![] : Fin 0 → Fin t.rank))
    (v : FVec Ideal t .f32) (i : t.Idx)
    (h : cmpf .olt (Host.absf v) (broadcastInDim t ![] hb (constant Cert.Pre_finite_inputs.S_ .f32 0x7F800000#32)) i = 1#1) :
    ∃ r : ℝ, v i = (r : EReal) := by
  change Ideal.cmp .olt (max (v i) (-(v i))) (Ideal.ofBits .f32 0x7F800000#32) = 1#1 at h
  rw [ofBits_inf] at h
  refine real_of_abs_lt_top (v i) ?_
  simp only [Ideal.cmp] at h
  by_contra hn
  rw [decide_eq_false hn] at h
  exact absurd h (by decide)

/-- Under the precondition every entry of the first three arguments is a real number. -/
theorem finite_of_pre
    (x : FVec Ideal Cert.Pre_finite_inputs.S64x224x224 .f32) (pw : FVec Ideal Cert.Pre_finite_inputs.S50176x40 .f32)
    (lw : FVec Ideal Cert.Pre_finite_inputs.S2x40 .f32) (cw : FVec Ideal Cert.Pre_finite_inputs.S10x40 .f32)
    (h : Cert.Pre_finite_inputs.fn (F := Ideal) x pw lw cw = fun _ => 1#1) :
    (∀ i, ∃ r : ℝ, x i = (r : EReal)) ∧ (∀ i, ∃ r : ℝ, pw i = (r : EReal)) ∧ (∀ i, ∃ r : ℝ, lw i = (r : EReal)) := by
  -- the result word, read at its one index, is the conjunction ((a₁ ∧ a₂) ∧ a₃) ∧ a₄ of the four reductions
  have h0 := congrFun h ValueIdx.ix0
  dsimp only [Cert.Pre_finite_inputs.fn, Cert.Pre_finite_inputs.fn_part1] at h0
  obtain ⟨h123, -⟩ := IntOp.andi_eq_one.1 h0
  obtain ⟨h12, h3⟩ := IntOp.andi_eq_one.1 h123
  obtain ⟨h1, h2⟩ := IntOp.andi_eq_one.1 h12
  -- a reduction by `and` over all axes that is 1 met a 1 at every index; each such 1 is one real entry
  exact ⟨fun i => real_of_cmp _ x i (Host.reduce_andi_all _ _ _ _ _ h1 i),
    fun i => real_of_cmp _ pw i (Host.reduce_andi_all _ _ _ _ _ h2 i),
    fun i => real_of_cmp _ lw i (Host.reduce_andi_all _ _ _ _ _ h3 i)⟩

end Cert.Hv
-- ==== Proof.Result.lean ====
/-
  The result array, and its equality with the reference's term.

  Only the last grid point writes the [64, 10] result back, and its block is the whole array, so the array after the run
  is what the last point left in the staging buffer: the final arithmetic of the accumulator after the last point and of
  the level table, then the sign encoding and the product with the classifier's transpose. The sign encoding and that
  product are spelt the same way in the reference, so the two results are equal as soon as the two bound sums are, and
  for real inputs they are: both are the sum over the pixels of the position weight times the selected level row.
-/
import proofs.«125885_j16071767621701_1_alg».proof.Proof.Total
import proofs.«125885_j16071767621701_1_alg».proof.Proof.RefSum
import proofs.«125885_j16071767621701_1_alg».proof.Proof.Finite
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Hv

open Cert.KernelIdeal Cert.KernelIdeal.Gen

variable (m : (ℓ : Loc nD τ sig) → Buf (Elt Ideal) ℓ)

/-- The last grid point. -/
abbrev tLast : Fin cfg0.N := ⟨7, h7⟩

/-- WHAT THE LAST POINT LEAVES in the result's staging buffer: the final arithmetic of the accumulator it has just
    updated. -/
theorem out_at_last (c : Dev nD) (t : Fin cfg0.N) (h0 : ¬t.val % 8 = 0) (h1 : t.val % 8 = 7) :
    (outsAt0 m c t.val t.isLt).1
      = k0_pay3 (rowsOf (outsAt0 m c t.val t.isLt).2) (totOf (outsAt0 m c t.val t.isLt).2)
          (lvl0Of (lblk m c t)) (lvl1Of (lblk m c t)) (cblk m c t) := by
  rw [outsAt0_C m c t h0 h1]
  dsimp only
  rw [out_last, scr_last]

/-- The sign encoding and the product with the classifier's transpose are the reference's own, so the kernel's final
    arithmetic IS the reference's last stage wherever the two bound sums agree. -/
theorem tail_eq (acc : Vec Ideal S72x40 .f32) (lw : Vec Ideal S2x40 .f32) (cw : Vec Ideal S10x40 .f32)
    (X : (⟨Cert.ReferenceIdeal.S64x224x224, .f32⟩ : BufTy).Contents (Elt Ideal))
    (PW : (⟨Cert.ReferenceIdeal.S50176x40, .f32⟩ : BufTy).Contents (Elt Ideal))
    (LW : (⟨Cert.ReferenceIdeal.S2x40, .f32⟩ : BufTy).Contents (Elt Ideal))
    (hS : ∀ (b : Fin 64) (d : Fin 40),
      boundK acc lw (ix2 b d) = Cert.ReferenceIdeal.Read.val_main_v16 (F := Ideal) X PW LW (ix2 b d)) :
    k0_pay3 (rowsOf acc) (totOf acc) (lvl0Of lw) (lvl1Of lw) cw
      = Cert.ReferenceIdeal.Read.val_main_v21 (F := Ideal) X PW LW cw := by
  funext j
  obtain ⟨p, q, rfl⟩ : ∃ (p : Fin 64) (q : Fin 10), j = ix2 p q := ⟨j 0, j 1, eq_ix2 j⟩
  rw [Cert.ReferenceIdeal.Read.val_main_v21_apply]
  unfold k0_pay3
  dsimp only
  rw [Cert.LibOuterDot.matmul_zero_ix2 _ rfl rfl rfl rfl rfl rfl rfl rfl]
  refine Finset.sum_congr rfl fun k _ => ?_
  have hl : Cert.ReferenceIdeal.Read.lidx_main_v21 (ix2 p q) k = ix2 p k :=
    funext fun a => Fin.ext (by match a with | ⟨0, _⟩ => rfl | ⟨1, _⟩ => rfl)
  have hr : Cert.ReferenceIdeal.Read.ridx_main_v21 (ix2 p q) k = ix2 k q :=
    funext fun a => Fin.ext (by match a with | ⟨0, _⟩ => rfl | ⟨1, _⟩ => rfl)
  rw [hl, hr, Cert.ReferenceIdeal.Read.val_main_v19_apply, Cert.ReferenceIdeal.Read.val_main_v18_apply, ← hS p k,
    Cert.ReferenceIdeal.Read.val_main_v17_apply, Cert.ReferenceIdeal.Read.val_main_cst_4_apply,
    Cert.ReferenceIdeal.Read.val_main_call2_v0_apply, Cert.ReferenceIdeal.Read.val_main_cst_5_apply,
    Cert.ReferenceIdeal.Read.val_main_call2_v1_apply, Cert.ReferenceIdeal.Read.val_main_cst_6_apply,
    Cert.ReferenceIdeal.Read.val_main_v20_apply]
  refine congrArg₂ (· * ·) rfl ?_
  exact transpose_apply [1, 0] cw _ (ix2 k q) _ (fun b => by match b with | ⟨0, _⟩ => rfl | ⟨1, _⟩ => rfl)

/-- The flattened pixel array the region finds is the reshape of the pixel argument. -/
theorem xarr_eq (c : Dev nD) :
    xarr m c = shapeCast S64x50176 (m ((c : Thread nD τ).loc main_arg0)) shapeCasts_S64x224x224_S64x50176 := by
  show (V m c main_v0 : S64x50176.Idx → EReal) = _
  dsimp only [Gen.V, Gen.hostOps0]
  after_results
  rfl

/-- The result's one block sits at the origin. -/
theorem idx_o : ∀ t : Fin cfg0.N, win0_4.index t (0 : Fin 2) = 0 ∧ win0_4.index t (1 : Fin 2) = 0 :=
  (by decide +kernel : ∀ t : Fin grid0.N, _)

/-- What the last point left in the result's staging buffer, as contents of the result array. -/
abbrev res (c : Dev nD) : Buf (Elt Ideal) ((c : Thread nD τ).loc main_v1) := (outsAt0 m c 7 h7).1

/-- The one write-back writes it: the block at the origin of a [64, 10] array, of extent [64, 10], is the array. -/
theorem flushed_eq (c : Dev nD) (t : Fin cfg0.N) (hf : (cfg0.win 4).flush t = true) :
    (dats m 0 c).flushed 4 t = ((cfg0.win 4).blk t).view.read (Elt Ideal) (res m c) := by
  have h3 : t.val = 7 := by
    have := (flush0_4 t).mp hf; have := lt_of_lt_of_eq t.isLt N8; omega
  obtain rfl : t = tLast := Fin.ext h3
  rw [Cert.KernelIdeal.Value.flushed4]
  have hz' : (fun a => win0_4.index tLast a * main_v1.ty.shape.size a) = fun _ => 0 := funext fun a => by
    match a with
    | ⟨0, _⟩ => show win0_4.index tLast 0 * 64 = 0; rw [(idx_o tLast).1]
    | ⟨1, _⟩ => show win0_4.index tLast 1 * 10 = 0; rw [(idx_o tLast).2]
  exact (Memref.read_access_unit_zero (Elt Ideal) main_v1 hz' (fun a => by rw [congrFun hz' a]; simp) (res m c)).symm

/-- So the result array ends at what the last point left. -/
theorem final_res (c : Dev nD) : (dats m 0 c).arrAt 4 cfg0.N = res m c :=
  (dats m 0 c).arrAt_eq_of_cover 4 (res m c) (flushed_eq m c) fun i =>
    ⟨tLast, (flush0_4 tLast).mpr rfl, by
      show i ∈ ((View.whole main_v1).slice (win0_4.rect tLast)).set
      rw [View.set_slice_whole, Rect.mem_set_unit]
      intro a
      have h0 : (i 0 : Nat) < 64 := (i 0).isLt
      have h1 : (i 1 : Nat) < 10 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [(idx_o tLast).1, show win0_4.xsize (grid0.coords tLast) 0 = 64 from by decide +kernel]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [(idx_o tLast).2, show win0_4.xsize (grid0.coords tLast) 1 = 10 from by decide +kernel]; omega⟩

/-- THE KERNEL'S RESULT IS THE REFERENCE'S TERM, for inputs that satisfy the precondition. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    (dats m 0 c).arrAt 4 cfg0.N
      = Cert.ReferenceIdeal.Read.val_main_v21 (F := Ideal) (m ((c : Thread nD τ).loc main_arg0))
          (m ((c : Thread nD τ).loc main_arg1)) (m ((c : Thread nD τ).loc main_arg2)) (m ((c : Thread nD τ).loc main_arg3)) := by
  obtain ⟨hX, hP, hL⟩ := Cert.Hv.finite_of_pre _ _ _ _ hpre
  choose xR hxR using hX
  choose pwr hpw using hP
  choose lwr hlw using hL
  -- the reshaped pixels are real too: each is one of the pixels
  let xr : Cert.ReferenceIdeal.S64x50176.Idx → ℝ := fun i => xR (Cert.ReferenceIdeal.Read.idx_main_v0 i)
  have hxf : ∀ i, Cert.ReferenceIdeal.Read.val_main_v0 (F := Ideal) (m ((c : Thread nD τ).loc main_arg0)) i
      = ((xr i : ℝ) : EReal) := fun i => by
    rw [Cert.ReferenceIdeal.Read.val_main_v0_apply]; exact hxR _
  rw [final_res]
  show (outsAt0 m c tLast.val tLast.isLt).1 = _
  rw [out_at_last m c tLast (by decide) (by decide), cblk_eq, show carr m c = m ((c : Thread nD τ).loc main_arg3) from V_main_arg3 m c]
  refine tail_eq _ _ _ _ _ _ fun b d => ?_
  rw [Cert.ReferenceIdeal.Hv.ref_sum _ _ _ xr pwr lwr hxf hpw hlw b d]
  refine kernel_bound m c tLast xr pwr lwr (fun i => ?_) (fun i => ?_) (fun i => ?_) b d
  · rw [xarr_eq]; exact hxf i
  · rw [show parr m c = m ((c : Thread nD τ).loc main_arg1) from V_main_arg1 m c]; exact hpw i
  · rw [show larr m c = m ((c : Thread nD τ).loc main_arg2) from V_main_arg2 m c]; exact hlw i

end Cert.KernelIdeal.Hv

end
-- ==== Proof.lean ====
/-
  The certificate of the hyperdimensional encoder: a Pallas kernel against its jnp reference, over the extended reals.

  Both programs round each pixel to a level bit e ∈ {0, 1}, bind the position vectors with the level row the bit
  selects, sum over the 50176 pixels, take signs, and multiply by the classifier's transpose. The reference gathers the
  level row per pixel and sums the products. The kernel never gathers: since the bit selects between two rows,
      Σ_p w(p, d) · level[e(b, p)](d) = level[0](d) · Σ_p w(p, d) + (Σ_p e(b, p) · w(p, d)) · (level[1](d) − level[0](d)),
  and both sums on the right are rows of ONE matrix product of the bits, with eight rows of ones appended, against the
  position weights, accumulated tile by tile over a grid of eight points. The law is distributivity, so it needs the
  inputs finite, which is the precondition; for a finite pixel the rounded, clipped value is exactly 0 or 1, which is
  what lets the reference's integer row index and the kernel's real weight agree.

  The three frames are the generated frame runs. The idealization rewrote nothing, so `preserves` is `True`. For
  `algebraic` both runs are set at the reference's last stage: the reference's run ends there by its generated
  reading, the kernel's by `Hv.result_eq` (Proof/Result.lean), which reads the result array off the frame run, the
  accumulator as a fold over the grid (Proof/Accum.lean, Proof/Total.lean) and joins the two bound sums by the
  binding law (Proof/Algebra.lean) over the real witnesses the precondition gives (Proof/Finite.lean).
-/
import proofs.«125885_j16071767621701_1_alg».proof.Defs
import proofs.«125885_j16071767621701_1_alg».proof.Proof.Gen.Kernel
import proofs.«125885_j16071767621701_1_alg».proof.Proof.Gen.Kernel.Skeleton
import proofs.«125885_j16071767621701_1_alg».proof.Proof.Gen.Kernel.Launch
import proofs.«125885_j16071767621701_1_alg».proof.Proof.Gen.Kernel.Points
import proofs.«125885_j16071767621701_1_alg».proof.Proof.Gen.Kernel.Frame
import proofs.«125885_j16071767621701_1_alg».proof.Proof.Gen.KernelIdeal
import proofs.«125885_j16071767621701_1_alg».proof.Proof.Gen.KernelIdeal.Skeleton
import proofs.«125885_j16071767621701_1_alg».proof.Proof.Gen.KernelIdeal.Launch
import proofs.«125885_j16071767621701_1_alg».proof.Proof.Gen.KernelIdeal.Points
import proofs.«125885_j16071767621701_1_alg».proof.Proof.Gen.KernelIdeal.Frame
import proofs.«125885_j16071767621701_1_alg».proof.Proof.Gen.ReferenceIdeal
import proofs.«125885_j16071767621701_1_alg».proof.Proof.Gen.Pre_finite_inputs
import proofs.«125885_j16071767621701_1_alg».proof.Proof.Gen.KernelIdeal.Value
import proofs.«125885_j16071767621701_1_alg».proof.Proof.Gen.ReferenceIdeal.Run
import proofs.«125885_j16071767621701_1_alg».proof.Proof.Gen.ReferenceIdeal.Read
import proofs.«125885_j16071767621701_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with the reference's
    last stage of the arguments in their result arrays. -/
theorem algebraic : Cert.algebraic_KernelIdeal_ReferenceIdeal := by
  intro m ρ m' ρ' hpre hagree
  refine ⟨fun c => Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Hv.result_eq m c (hpre c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v21_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
